-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) (main_arg2 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  main_v13
-- ==== Kernel.lean ====
abbrev S4x4096x64 : Shape := ⟨3, ![4, 4096, 64]⟩
abbrev S1x1024x64 : Shape := ⟨3, ![1, 1024, 64]⟩
abbrev S1x1024x1024 : Shape := ⟨3, ![1, 1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x64, .bf16⟩
  | .hbm, ⟨4, _⟩ => ⟨S4x4096x64, .bf16⟩
  | .hbm, ⟨5, _⟩ => ⟨S4x4096x64, .bf16⟩
  | .hbm, ⟨6, _⟩ => ⟨S4x4096x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x1024x64, .bf16⟩
  | .local _ .vmem, ⟨5, _⟩ => ⟨S1x1024x64, .bf16⟩
  | .local _ .vmem, ⟨6, _⟩ => ⟨S1x1024x64, .f32⟩
  | .local _ .vmem, ⟨7, _⟩ => ⟨S1x1024x64, .f32⟩
  | .local _ .vmem, ⟨8, _⟩ => ⟨S1x1024x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_16 : BitVec 32 := 0#32
  let v20 : BitVec 1 := Scalar.cmpi .ne v19 c0_i32_16
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  dot_S1x1024x64_S1x1024x64_S1x1024x1024_2_2_1_1_0_0_wf : DotDims.WF S1x1024x64 S1x1024x64 S1x1024x1024 [2] [2] [1] [1] [0] [0]
  dot_S1x1024x1024_S1x1024x64_S1x1024x64_2_1_1_2_0_0_wf : DotDims.WF S1x1024x1024 S1x1024x64 S1x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .bf16 = 32 ∨ (Rect.block (s := S4x4096x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x4096x64.size a
  hwx0_1 : ∀ i : grid0.Coords, EltTy.bits .bf16 = 32 ∨ (Rect.block (s := S4x4096x64) S1x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x4096x64.size a
  hwx0_2 : ∀ i : grid0.Coords, EltTy.bits .bf16 = 32 ∨ (Rect.block (s := S4x4096x64) S1x1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S4x4096x64.size a
  hwx0_3 : ∀ i : grid0.Coords, EltTy.bits .f32 = 32 ∨ (Rect.block (s := S4x4096x64) S1x1024x64.size (cc0_transform_3 i) (hinb0_3 i)).WholeWords (EltTy.packing .f32)

variable [Facts₀]

def dot_S1x1024x64_S1x1024x64_S1x1024x1024_2_2_1_1_0_0 : DotDims S1x1024x64 S1x1024x64 S1x1024x1024 where
  lhsContracting := [2]
  rhsContracting := [2]
  lhsNonContracting := [1]
  rhsNonContracting := [1]
  lhsBatch := [0]
  rhsBatch := [0]
  wf := dot_S1x1024x64_S1x1024x64_S1x1024x1024_2_2_1_1_0_0_wf
def dot_S1x1024x1024_S1x1024x64_S1x1024x64_2_1_1_2_0_0 : DotDims S1x1024x1024 S1x1024x64 S1x1024x64 where
  lhsContracting := [2]
  rhsContracting := [1]
  lhsNonContracting := [1]
  rhsNonContracting := [2]
  lhsBatch := [0]
  rhsBatch := [0]
  wf := dot_S1x1024x1024_S1x1024x64_S1x1024x64_2_1_1_2_0_0_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x64 : Shape := ⟨3, ![4, 4096, 64]⟩
abbrev S4x4096x4096 : Shape := ⟨3, ![4, 4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x4096, .f32⟩
  | .hbm, ⟨4, _⟩ => ⟨S4x4096x4096, .f32⟩
  | .hbm, ⟨5, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.CaseValues.lean ====
/-
  What the body leaves behind in each of its three control cases, as values.

  The accumulator is the scratch block carried from point to point. At the first point of a run (key block 0) the
  body stores the zero block into it and then stores "accumulator + this point's contribution" over it, so what is
  left is the contribution added to zero. At every later point it stores "what the point before left + this
  point's contribution". At the last point of a run (key block 3) it also copies the accumulator, as just stored,
  into the output's block: there the output's block and the accumulator hold the same values.
-/
import proofs.«155767_j60653528154261_1_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen Idealize.ShloMosaic Idealize.ShloMosaic.TcCoe Idealize.SL.Sem

variable {F : FTy → Type} [FloatOps F]

theorem origin : (![0, 0, 0] : Fin 3 → Nat) = fun _ => 0 := funext fun a => by fin_cases a <;> rfl

/-- First point of a run: the accumulator is left at the contribution added to the zero block. -/
theorem scratch_first (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x64 .f32) (harg7 : arg7.IsWhole) (hc0 : cond0_0 i) (hc1 : ¬cond0_1 i)
    (x0 x1 x2 : Vec F S1x1024x64 .bf16) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1x1024x64) origin, View.readCov_unit_zero (S := S1x1024x64) _ origin]
  simp only [View.readAt_eq_ld, harg3.read_unread, harg4.read_unread, harg5.read_unread, View.ld_unit_zero (S := S1x1024x64) origin]

/-- A middle point of a run: the accumulator is left at what it held plus the contribution. -/
theorem scratch_middle (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x64 .f32) (harg7 : arg7.IsWhole) (hc0 : ¬cond0_0 i) (hc1 : ¬cond0_1 i)
    (x0 x1 x2 : Vec F S1x1024x64 .bf16) (xs0 : Vec F S1x1024x64 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg5.read_unread, harg7.read_unread, View.ld_unit_zero (S := S1x1024x64) origin]

/-- The last point of a run: the accumulator likewise, -/
theorem scratch_last (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x64 .f32) (harg7 : arg7.IsWhole) (hc0 : ¬cond0_0 i) (hc1 : cond0_1 i)
    (x0 x1 x2 : Vec F S1x1024x64 .bf16) (xs0 : Vec F S1x1024x64 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg5.read_unread, harg7.read_unread, View.ld_unit_zero (S := S1x1024x64) origin]

/-- and the output's block receives the same values. -/
theorem output_last (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x64 .f32) (harg7 : arg7.IsWhole) (hc0 : ¬cond0_0 i) (hc1 : cond0_1 i)
    (x0 x1 x2 : Vec F S1x1024x64 .bf16) (xs0 : Vec F S1x1024x64 .f32) :
    out0_C_3 c i arg3 harg3 arg4 harg4 arg5 harg5 arg6 harg6 arg7 harg7 hc0 hc1 x0 x1 x2 xs0 = k0_pay2 x0 x1 x2 xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg5.read_unread, harg7.read_unread, View.ld_unit_zero (S := S1x1024x64) origin, View.readCov_unit_zero (S := S1x1024x64) _ origin]

end Cert.KernelIdeal.CaseValues

end
-- ==== Proof.KeyBlock.lean ====
/-
  What one grid point adds to the accumulator, entry by entry, on the extended reals.

  At a point the body holds one block of 1024 query rows, one block of 1024 key rows and the matching block of
  1024 value rows (64 features each, one batch). It stores into the accumulator

      acc[r, d] + Σ_{κ < 1024} exp( Σ_{e < 64} Q[r, e] · K[κ, e] ) · V[κ, d] :

  the first matrix product contracts the feature axis of the query and key blocks (the scores of the block), the
  exponential is taken entry by entry, and the second product contracts the key axis of the exponentiated scores
  against the value block. Both products start from a zero accumulator, so each is the bare sum; the changes of
  float format in between are the identity on the extended reals. At the first point of a run the accumulator has
  just been reset to the zero block.
-/
import proofs.«155767_j60653528154261_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.KeyBlock

open Cert.KernelIdeal Cert.KernelIdeal.Gen Idealize.ShloMosaic Idealize.ShloMosaic.ValueIdx

/-! ## The scores' product: query block against key block, contracting the features -/

theorem scores_lhs_0 (i : S1x1024x1024.Idx) (q : dot_S1x1024x64_S1x1024x64_S1x1024x1024_2_2_1_1_0_0.contr.Idx) :
    (dot_S1x1024x64_S1x1024x64_S1x1024x1024_2_2_1_1_0_0.lhsIdx i q 0).val = (i 0).val := by
  unfold DotDims.lhsIdx
  rw [dif_pos (show (0 : Fin S1x1024x64.rank) ∈ dot_S1x1024x64_S1x1024x64_S1x1024x1024_2_2_1_1_0_0.lhsBatch by decide)]
  rfl
theorem scores_lhs_1 (i : S1x1024x1024.Idx) (q : dot_S1x1024x64_S1x1024x64_S1x1024x1024_2_2_1_1_0_0.contr.Idx) :
    (dot_S1x1024x64_S1x1024x64_S1x1024x1024_2_2_1_1_0_0.lhsIdx i q 1).val = (i 1).val := by
  unfold DotDims.lhsIdx
  rw [dif_neg (show ¬(1 : Fin S1x1024x64.rank) ∈ dot_S1x1024x64_S1x1024x64_S1x1024x1024_2_2_1_1_0_0.lhsBatch by decide), dif_pos (show (1 : Fin S1x1024x64.rank) ∈ dot_S1x1024x64_S1x1024x64_S1x1024x1024_2_2_1_1_0_0.lhsNonContracting by decide)]
  rfl
theorem scores_lhs_2 (i : S1x1024x1024.Idx) (q : dot_S1x1024x64_S1x1024x64_S1x1024x1024_2_2_1_1_0_0.contr.Idx) :
    (dot_S1x1024x64_S1x1024x64_S1x1024x1024_2_2_1_1_0_0.lhsIdx i q 2).val = (q ⟨0, by decide⟩).val :=
  dot_S1x1024x64_S1x1024x64_S1x1024x1024_2_2_1_1_0_0.lhsIdx_val_of_single rfl i q
theorem scores_rhs_0 (i : S1x1024x1024.Idx) (q : dot_S1x1024x64_S1x1024x64_S1x1024x1024_2_2_1_1_0_0.contr.Idx) :
    (dot_S1x1024x64_S1x1024x64_S1x1024x1024_2_2_1_1_0_0.rhsIdx i q 0).val = (i 0).val := by
  unfold DotDims.rhsIdx
  rw [dif_pos (show (0 : Fin S1x1024x64.rank) ∈ dot_S1x1024x64_S1x1024x64_S1x1024x1024_2_2_1_1_0_0.rhsBatch by decide)]
  rfl
theorem scores_rhs_1 (i : S1x1024x1024.Idx) (q : dot_S1x1024x64_S1x1024x64_S1x1024x1024_2_2_1_1_0_0.contr.Idx) :
    (dot_S1x1024x64_S1x1024x64_S1x1024x1024_2_2_1_1_0_0.rhsIdx i q 1).val = (i 2).val := by
  unfold DotDims.rhsIdx
  rw [dif_neg (show ¬(1 : Fin S1x1024x64.rank) ∈ dot_S1x1024x64_S1x1024x64_S1x1024x1024_2_2_1_1_0_0.rhsBatch by decide), dif_pos (show (1 : Fin S1x1024x64.rank) ∈ dot_S1x1024x64_S1x1024x64_S1x1024x1024_2_2_1_1_0_0.rhsNonContracting by decide)]
  rfl
theorem scores_rhs_2 (i : S1x1024x1024.Idx) (q : dot_S1x1024x64_S1x1024x64_S1x1024x1024_2_2_1_1_0_0.contr.Idx) :
    (dot_S1x1024x64_S1x1024x64_S1x1024x1024_2_2_1_1_0_0.rhsIdx i q 2).val = (q ⟨0, by decide⟩).val :=
  dot_S1x1024x64_S1x1024x64_S1x1024x1024_2_2_1_1_0_0.rhsIdx_val_of_single rfl i q

/-- Entry `(b, r, κ)` of the block's scores: the inner product of query row `r` and key row `κ` over the 64 features. -/
theorem scores_apply (l r : FVec Ideal S1x1024x64 .bf16) (i : S1x1024x1024.Idx) :
    matmul dot_S1x1024x64_S1x1024x64_S1x1024x1024_2_2_1_1_0_0 none l r (constant S1x1024x1024 .f32 0x00000000#32) i
      = ∑ e : Fin 64, l (ix3 (i 0) (i 1) e) * r (ix3 (i 0) (i 2) e) := by
  simp only [matmul]
  rw [Ideal.matmul_constant_zero_apply, ← Equiv.sum_comp (contrEquiv1 dot_S1x1024x64_S1x1024x64_S1x1024x1024_2_2_1_1_0_0 64 rfl rfl).symm]
  refine Finset.sum_congr rfl fun e _ => ?_
  have he := contrEquiv1_symm_val dot_S1x1024x64_S1x1024x64_S1x1024x1024_2_2_1_1_0_0 64 rfl rfl e
  have el : dot_S1x1024x64_S1x1024x64_S1x1024x1024_2_2_1_1_0_0.lhsIdx i ((contrEquiv1 dot_S1x1024x64_S1x1024x64_S1x1024x1024_2_2_1_1_0_0 64 rfl rfl).symm e) = ix3 (i 0) (i 1) e := funext fun a => Fin.ext (by
    match a with
    | ⟨0, _⟩ => exact scores_lhs_0 _ _
    | ⟨1, _⟩ => exact scores_lhs_1 _ _
    | ⟨2, _⟩ => exact (scores_lhs_2 _ _).trans he)
  have er : dot_S1x1024x64_S1x1024x64_S1x1024x1024_2_2_1_1_0_0.rhsIdx i ((contrEquiv1 dot_S1x1024x64_S1x1024x64_S1x1024x1024_2_2_1_1_0_0 64 rfl rfl).symm e) = ix3 (i 0) (i 2) e := funext fun a => Fin.ext (by
    match a with
    | ⟨0, _⟩ => exact scores_rhs_0 _ _
    | ⟨1, _⟩ => exact scores_rhs_1 _ _
    | ⟨2, _⟩ => exact (scores_rhs_2 _ _).trans he)
  rw [el, er]
  rfl

/-! ## The second product: exponentiated scores against the value block, contracting the keys -/

theorem mix_lhs_0 (i : S1x1024x64.Idx) (q : dot_S1x1024x1024_S1x1024x64_S1x1024x64_2_1_1_2_0_0.contr.Idx) :
    (dot_S1x1024x1024_S1x1024x64_S1x1024x64_2_1_1_2_0_0.lhsIdx i q 0).val = (i 0).val := by
  unfold DotDims.lhsIdx
  rw [dif_pos (show (0 : Fin S1x1024x1024.rank) ∈ dot_S1x1024x1024_S1x1024x64_S1x1024x64_2_1_1_2_0_0.lhsBatch by decide)]
  rfl
theorem mix_lhs_1 (i : S1x1024x64.Idx) (q : dot_S1x1024x1024_S1x1024x64_S1x1024x64_2_1_1_2_0_0.contr.Idx) :
    (dot_S1x1024x1024_S1x1024x64_S1x1024x64_2_1_1_2_0_0.lhsIdx i q 1).val = (i 1).val := by
  unfold DotDims.lhsIdx
  rw [dif_neg (show ¬(1 : Fin S1x1024x1024.rank) ∈ dot_S1x1024x1024_S1x1024x64_S1x1024x64_2_1_1_2_0_0.lhsBatch by decide), dif_pos (show (1 : Fin S1x1024x1024.rank) ∈ dot_S1x1024x1024_S1x1024x64_S1x1024x64_2_1_1_2_0_0.lhsNonContracting by decide)]
  rfl
theorem mix_lhs_2 (i : S1x1024x64.Idx) (q : dot_S1x1024x1024_S1x1024x64_S1x1024x64_2_1_1_2_0_0.contr.Idx) :
    (dot_S1x1024x1024_S1x1024x64_S1x1024x64_2_1_1_2_0_0.lhsIdx i q 2).val = (q ⟨0, by decide⟩).val :=
  dot_S1x1024x1024_S1x1024x64_S1x1024x64_2_1_1_2_0_0.lhsIdx_val_of_single rfl i q
theorem mix_rhs_0 (i : S1x1024x64.Idx) (q : dot_S1x1024x1024_S1x1024x64_S1x1024x64_2_1_1_2_0_0.contr.Idx) :
    (dot_S1x1024x1024_S1x1024x64_S1x1024x64_2_1_1_2_0_0.rhsIdx i q 0).val = (i 0).val := by
  unfold DotDims.rhsIdx
  rw [dif_pos (show (0 : Fin S1x1024x64.rank) ∈ dot_S1x1024x1024_S1x1024x64_S1x1024x64_2_1_1_2_0_0.rhsBatch by decide)]
  rfl
theorem mix_rhs_1 (i : S1x1024x64.Idx) (q : dot_S1x1024x1024_S1x1024x64_S1x1024x64_2_1_1_2_0_0.contr.Idx) :
    (dot_S1x1024x1024_S1x1024x64_S1x1024x64_2_1_1_2_0_0.rhsIdx i q 1).val = (q ⟨0, by decide⟩).val :=
  dot_S1x1024x1024_S1x1024x64_S1x1024x64_2_1_1_2_0_0.rhsIdx_val_of_single rfl i q
theorem mix_rhs_2 (i : S1x1024x64.Idx) (q : dot_S1x1024x1024_S1x1024x64_S1x1024x64_2_1_1_2_0_0.contr.Idx) :
    (dot_S1x1024x1024_S1x1024x64_S1x1024x64_2_1_1_2_0_0.rhsIdx i q 2).val = (i 2).val := by
  unfold DotDims.rhsIdx
  rw [dif_neg (show ¬(2 : Fin S1x1024x64.rank) ∈ dot_S1x1024x1024_S1x1024x64_S1x1024x64_2_1_1_2_0_0.rhsBatch by decide), dif_pos (show (2 : Fin S1x1024x64.rank) ∈ dot_S1x1024x1024_S1x1024x64_S1x1024x64_2_1_1_2_0_0.rhsNonContracting by decide)]
  rfl

/-- Entry `(b, r, d)` of the second product: the weights of row `r` against column `d` of the value block, over the 1024 keys. -/
theorem mix_apply (p : FVec Ideal S1x1024x1024 .bf16) (v : FVec Ideal S1x1024x64 .bf16) (i : S1x1024x64.Idx) :
    matmul dot_S1x1024x1024_S1x1024x64_S1x1024x64_2_1_1_2_0_0 none p v (constant S1x1024x64 .f32 0x00000000#32) i
      = ∑ κ : Fin 1024, p (ix3 (i 0) (i 1) κ) * v (ix3 (i 0) κ (i 2)) := by
  simp only [matmul]
  rw [Ideal.matmul_constant_zero_apply, ← Equiv.sum_comp (contrEquiv1 dot_S1x1024x1024_S1x1024x64_S1x1024x64_2_1_1_2_0_0 1024 rfl rfl).symm]
  refine Finset.sum_congr rfl fun κ _ => ?_
  have hκ := contrEquiv1_symm_val dot_S1x1024x1024_S1x1024x64_S1x1024x64_2_1_1_2_0_0 1024 rfl rfl κ
  have el : dot_S1x1024x1024_S1x1024x64_S1x1024x64_2_1_1_2_0_0.lhsIdx i ((contrEquiv1 dot_S1x1024x1024_S1x1024x64_S1x1024x64_2_1_1_2_0_0 1024 rfl rfl).symm κ) = ix3 (i 0) (i 1) κ := funext fun a => Fin.ext (by
    match a with
    | ⟨0, _⟩ => exact mix_lhs_0 _ _
    | ⟨1, _⟩ => exact mix_lhs_1 _ _
    | ⟨2, _⟩ => exact (mix_lhs_2 _ _).trans hκ)
  have er : dot_S1x1024x1024_S1x1024x64_S1x1024x64_2_1_1_2_0_0.rhsIdx i ((contrEquiv1 dot_S1x1024x1024_S1x1024x64_S1x1024x64_2_1_1_2_0_0 1024 rfl rfl).symm κ) = ix3 (i 0) κ (i 2) := funext fun a => Fin.ext (by
    match a with
    | ⟨0, _⟩ => exact mix_rhs_0 _ _
    | ⟨1, _⟩ => exact (mix_rhs_1 _ _).trans hκ
    | ⟨2, _⟩ => exact mix_rhs_2 _ _)
  rw [el, er]
  rfl

/-! ## The stored value -/

/-- What a point adds at entry `j` of the block: every key of the block, its exponentiated score against query row
    `j 1` times its value entry in column `j 2`. -/
def contribution (Q K V : Vec Ideal S1x1024x64 .bf16) (j : S1x1024x64.Idx) : EReal :=
  ∑ κ : Fin 1024, Ideal.exp (∑ e : Fin 64, Q (ix3 (j 0) (j 1) e) * K (ix3 (j 0) κ e)) * V (ix3 (j 0) κ (j 2))

/-- The body's accumulating store, read at an entry: the accumulator there plus the point's contribution. -/
theorem stored_apply (Q K V : Vec Ideal S1x1024x64 .bf16) (acc : Vec Ideal S1x1024x64 .f32) (j : S1x1024x64.Idx) :
    k0_pay2 (F := Ideal) Q K V acc j = acc j + contribution Q K V j := by
  unfold k0_pay2 contribution
  simp only [shapeCast_self]
  rw [addf_apply, mix_apply]
  refine congrArg (acc j + ·) (Finset.sum_congr rfl fun κ _ => ?_)
  rw [truncf_apply]
  show Ideal.exp (matmul (F := Ideal) dot_S1x1024x64_S1x1024x64_S1x1024x1024_2_2_1_1_0_0 none Q K (constant (F := Ideal) S1x1024x1024 .f32 0x00000000#32) (ix3 (j 0) (j 1) κ)) * _ = _
  rw [scores_apply]

/-- The block the reset stores is zero everywhere. -/
theorem reset_apply (j : S1x1024x64.Idx) : k0_pay1 (F := Ideal) j = 0 := by
  unfold k0_pay1
  simp only [shapeCast_self]
  exact Ideal.ofBits_zero_f32

end Cert.KernelIdeal.KeyBlock

end
-- ==== Proof.RunningSum.lean ====
/-
  The accumulator after any grid point, entry by entry.

  The grid's 64 points fall into 16 runs of 4 consecutive points: a run keeps one batch and one block of query rows
  and walks the four key blocks. The accumulator is reset to zero at a run's first point and every point of the run
  adds its own contribution, so after the point at offset `o` of its run the accumulator holds, at every entry,
  zero plus the contributions of the run's points `0 … o`. At the run's last point the same values are copied to
  the output's block.
-/
import proofs.«155767_j60653528154261_1_alg».proof.Proof.Gen.KernelIdeal.Value
import proofs.«155767_j60653528154261_1_alg».proof.Proof.CaseValues
import proofs.«155767_j60653528154261_1_alg».proof.Proof.KeyBlock

noncomputable section

open scoped BigOperators

namespace Cert.KernelIdeal.RunningSum

open Cert.KernelIdeal Cert.KernelIdeal.Gen Cert.KernelIdeal.Value Idealize.ShloMosaic Idealize.ShloMosaic.TcCoe Idealize.SL.Sem
open Cert.KernelIdeal.KeyBlock (contribution stored_apply reset_apply)

variable (m : (ℓ : Loc nD τ sig) → Buf (Elt Ideal) ℓ)

/-- The query, key and value blocks a point holds, at their literal shape. -/
abbrev queryBlock (c : Dev nD) (t : Fin cfg0.N) : Vec Ideal S1x1024x64 .bf16 := iblk m c 0 t
abbrev keyBlock (c : Dev nD) (t : Fin cfg0.N) : Vec Ideal S1x1024x64 .bf16 := iblk m c 1 t
abbrev valueBlock (c : Dev nD) (t : Fin cfg0.N) : Vec Ideal S1x1024x64 .bf16 := iblk m c 2 t

/-- What point `n` adds at entry `j` (zero past the grid, where nothing is ever read). -/
def added (c : Dev nD) (n : ℕ) (j : S1x1024x64.Idx) : EReal :=
  if hb : n < cfg0.N then contribution (queryBlock m c ⟨n, hb⟩) (keyBlock m c ⟨n, hb⟩) (valueBlock m c ⟨n, hb⟩) j else 0

/-- At a run's first point the accumulator is left at zero plus the point's contribution, whatever it held. -/
theorem first_point (c : Dev nD) (n : ℕ) (hb : n < cfg0.N) (h0 : n % 4 = 0) (junk : Vec Ideal S1x1024x64 .f32) (j : S1x1024x64.Idx) :
    scAt0_0 m c n hb junk j = 0 + added m c n j := by
  have h1 : ¬n % 4 = 3 := by omega
  unfold scAt0_0
  rw [dif_pos h0, dif_neg h1]
  refine (congrFun (CaseValues.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) j).trans ?_
  rw [stored_apply, reset_apply]
  unfold added
  rw [dif_pos hb]

/-- At every other point of a run it is left at what the point before left plus the point's contribution. -/
theorem later_point (c : Dev nD) (n : ℕ) (hb : n < cfg0.N) (h0 : ¬n % 4 = 0) (acc : Vec Ideal S1x1024x64 .f32) (j : S1x1024x64.Idx) :
    scAt0_0 m c n hb acc j = acc j + added m c n j := by
  unfold scAt0_0
  rw [dif_neg h0]
  by_cases h1 : n % 4 = 3
  · rw [dif_pos h1]
    refine (congrFun (CaseValues.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) j).trans ?_
    rw [stored_apply]
    unfold added
    rw [dif_pos hb]
  · rw [dif_neg h1]
    refine (congrFun (CaseValues.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) j).trans ?_
    rw [stored_apply]
    unfold added
    rw [dif_pos hb]

/-- THE ACCUMULATOR after point `t`: zero plus the contributions of the points of `t`'s run up to `t`. -/
theorem accumulator_apply (c : Dev nD) (t : Fin cfg0.N) (j : S1x1024x64.Idx) :
    (outsAt0 m c t.val t.isLt).2 j = 0 + ∑ o ∈ Finset.range (t.val % 4 + 1), added m c (4 * (t.val / 4) + o) j := by
  rw [soutsAt0_0_eq]
  exact Pipeline.accAt_add_apply (ι := S1x1024x64.Idx) (β := EReal)
    (fun n h => scAt0_0 m c n h (VS0_0.read (Elt Ideal) VS0_0.junk)) (scAt0_0 m c) (fun _ => 0) (added m c) (4 * (t.val / 4)) 3
    (fun h i => first_point m c _ h (Nat.mul_mod_right 4 _) _ i)
    (fun n h acc i hlo hhi => later_point m c n h (by omega) acc i)
    (t.val % 4) (by omega) _ j

/-- At a run's last point the output's block holds what the accumulator holds. -/
theorem output_eq_accumulator (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  rw [CaseValues.output_last, CaseValues.scratch_last]

end Cert.KernelIdeal.RunningSum

end
-- ==== Proof.InputBlocks.lean ====
/-
  Which entries of the argument arrays a grid point's three input blocks hold.

  The arrays the pipeline stages are the arguments after a change of float format, which is the identity on the
  extended reals: so they ARE the arguments. Point `t` of the 4 × 4 × 4 grid (batch, query block, key block; the
  key block moving fastest) has batch `t / 16`, query block `t / 4 % 4` and key block `t % 4`. Its query block is rows
  `1024 · (t / 4 % 4) …` of that batch of `q`; its key and value blocks are rows `1024 · (t % 4) …` of that batch of
  `k` and `v`; and the output block it may write back is rows `1024 · (t / 4 % 4) …` of that batch of the result.
-/
import proofs.«155767_j60653528154261_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.InputBlocks

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The staged query array is the argument `q`: -/
theorem staged_query (c : Dev nD) :
    (V m c main_v0 : S4x4096x64.Idx → EReal) = m ((c : Thread nD τ).loc main_arg0) := by
  dsimp only [V, hostOps0]; after_results; rfl

/-- the staged key array the argument `k`; -/
theorem staged_key (c : Dev nD) :
    (V m c main_v1 : S4x4096x64.Idx → EReal) = m ((c : Thread nD τ).loc main_arg1) := by
  dsimp only [V, hostOps0]; after_results; rfl

/-- the staged value array the argument `v`. -/
theorem staged_value (c : Dev nD) :
    (V m c main_v2 : S4x4096x64.Idx → EReal) = m ((c : Thread nD τ).loc main_arg2) := by
  dsimp only [V, hostOps0]; after_results; rfl

/-- The printed index maps in closed form, decided over the 64 points. -/
theorem block_indices : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val % 4 ∧ win0_2.index t (2 : Fin 3) = 0
    ∧ win0_3.index t (0 : Fin 3) = t.val / 16 ∧ win0_3.index t (1 : Fin 3) = t.val / 4 % 4 ∧ win0_3.index t (2 : Fin 3) = 0 :=
  (by decide +kernel : ∀ t : Fin grid0.N, _)

/-- Entry `j` of point `t`'s query block is the entry of `q` in batch `t / 16`, row `1024 · (t / 4 % 4) + j 1`. -/
theorem query_read (c : Dev nD) (t : Fin cfg0.N) (j : S1x1024x64.Idx) (i : S4x4096x64.Idx)
    (h0 : (i 0).val = t.val / 16 + (j 0).val) (h1 : (i 1).val = t.val / 4 % 4 * 1024 + (j 1).val) (h2 : (i 2).val = (j 2).val) :
    (iblk m c 0 t : Vec Ideal S1x1024x64 .bf16) j = m ((c : Thread nD τ).loc main_arg0) i := by
  rw [← staged_query m c]
  obtain ⟨e0, e1, e2, -⟩ := block_indices t
  show V m c main_v0 (((cfg0.win 0).blk t).view.emb j) = V m c main_v0 i
  refine congrArg _ (funext fun a => Fin.ext ?_)
  match a with
  | ⟨0, _⟩ => show win0_0.index t (0 : Fin 3) * 1 + 1 * (j 0).val = (i 0).val; omega
  | ⟨1, _⟩ => show win0_0.index t (1 : Fin 3) * 1024 + 1 * (j 1).val = (i 1).val; omega
  | ⟨2, _⟩ => show win0_0.index t (2 : Fin 3) * 64 + 1 * (j 2).val = (i 2).val; omega

/-- Entry `j` of point `t`'s key block is the entry of `k` in batch `t / 16`, row `1024 · (t % 4) + j 1`. -/
theorem key_read (c : Dev nD) (t : Fin cfg0.N) (j : S1x1024x64.Idx) (i : S4x4096x64.Idx)
    (h0 : (i 0).val = t.val / 16 + (j 0).val) (h1 : (i 1).val = t.val % 4 * 1024 + (j 1).val) (h2 : (i 2).val = (j 2).val) :
    (iblk m c 1 t : Vec Ideal S1x1024x64 .bf16) j = m ((c : Thread nD τ).loc main_arg1) i := by
  rw [← staged_key m c]
  obtain ⟨-, -, -, e0, e1, e2, -⟩ := block_indices t
  show V m c main_v1 (((cfg0.win 1).blk t).view.emb j) = V m c main_v1 i
  refine congrArg _ (funext fun a => Fin.ext ?_)
  match a with
  | ⟨0, _⟩ => show win0_1.index t (0 : Fin 3) * 1 + 1 * (j 0).val = (i 0).val; omega
  | ⟨1, _⟩ => show win0_1.index t (1 : Fin 3) * 1024 + 1 * (j 1).val = (i 1).val; omega
  | ⟨2, _⟩ => show win0_1.index t (2 : Fin 3) * 64 + 1 * (j 2).val = (i 2).val; omega

/-- Entry `j` of point `t`'s value block is the entry of `v` in batch `t / 16`, row `1024 · (t % 4) + j 1`. -/
theorem value_read (c : Dev nD) (t : Fin cfg0.N) (j : S1x1024x64.Idx) (i : S4x4096x64.Idx)
    (h0 : (i 0).val = t.val / 16 + (j 0).val) (h1 : (i 1).val = t.val % 4 * 1024 + (j 1).val) (h2 : (i 2).val = (j 2).val) :
    (iblk m c 2 t : Vec Ideal S1x1024x64 .bf16) j = m ((c : Thread nD τ).loc main_arg2) i := by
  rw [← staged_value m c]
  obtain ⟨-, -, -, -, -, -, e0, e1, e2, -⟩ := block_indices t
  show V m c main_v2 (((cfg0.win 2).blk t).view.emb j) = V m c main_v2 i
  refine congrArg _ (funext fun a => Fin.ext ?_)
  match a with
  | ⟨0, _⟩ => show win0_2.index t (0 : Fin 3) * 1 + 1 * (j 0).val = (i 0).val; omega
  | ⟨1, _⟩ => show win0_2.index t (1 : Fin 3) * 1024 + 1 * (j 1).val = (i 1).val; omega
  | ⟨2, _⟩ => show win0_2.index t (2 : Fin 3) * 64 + 1 * (j 2).val = (i 2).val; omega

/-- An index of the result array lies in the block point `t` may write back iff it is in batch `t / 16` and its row in
    the 1024 rows from `1024 · (t / 4 % 4)`. -/
theorem mem_output_block (t : Fin cfg0.N) (i : S4x4096x64.Idx) :
    i ∈ ((cfg0.win 3).blk t).view.set ↔ (i 0).val = t.val / 16 ∧ t.val / 4 % 4 * 1024 ≤ (i 1).val ∧ (i 1).val < t.val / 4 % 4 * 1024 + 1024 := by
  obtain ⟨-, -, -, -, -, -, -, -, -, e0, e1, e2⟩ := block_indices t
  show i ∈ ((View.whole main_v3).slice (win0_3.rect t)).set ↔ _
  rw [View.set_slice_whole, Rect.mem_set_unit]
  have hi2 : (i 2).val < 64 := (i 2).isLt
  constructor
  · intro h
    have b0 : win0_3.index t (0 : Fin 3) * 1 ≤ (i 0).val ∧ (i 0).val < win0_3.index t (0 : Fin 3) * 1 + 1 := h 0
    have b1 : win0_3.index t (1 : Fin 3) * 1024 ≤ (i 1).val ∧ (i 1).val < win0_3.index t (1 : Fin 3) * 1024 + 1024 := h 1
    omega
  · intro h a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1024 ≤ (i 1).val ∧ (i 1).val < win0_3.index t (1 : Fin 3) * 1024 + 1024; omega
    | ⟨2, _⟩ => show win0_3.index t (2 : Fin 3) * 64 ≤ (i 2).val ∧ (i 2).val < win0_3.index t (2 : Fin 3) * 64 + 64; omega

end Cert.KernelIdeal.InputBlocks

end
-- ==== Proof.ExpAttention.lean ====
/-
  Unnormalised exponential attention as ONE function of the three argument arrays, on the extended reals:

      out[b, s, d] = Σ_{κ < 4096} exp( Σ_{e < 64} q[b, s, e] · k[b, κ, e] ) · v[b, κ, d]

  (no scaling of the scores, no subtraction of a maximum, no normalisation). Beside it the one re-arrangement the
  blocked computation uses: the sum over the 4096 keys is the sum, over four consecutive runs of 1024 keys, of
  each run's partial sum. That is a re-grouping of a finite sum in a commutative monoid, so it holds on the
  extended reals without any finiteness of the terms.
-/
import Idealize.ShloMosaic.PureOps.Ideal
import Idealize.ShloMosaic.Lib.ValueIdx
import Mathlib.Logic.Equiv.Fin.Basic
import Mathlib.Algebra.BigOperators.Fin

noncomputable section

open scoped BigOperators

namespace Cert.ExpAttention

open Idealize.ShloMosaic Idealize.ShloMosaic.ValueIdx

/-- The arrays' shape: batch 4, sequence 4096, feature 64. -/
abbrev A : Shape := ⟨3, ![4, 4096, 64]⟩

/-- The score of query row `s` against key row `κ` in batch `b`: their inner product over the 64 features. -/
def score (q k : A.Idx → EReal) (b : Fin 4) (s κ : Fin 4096) : EReal :=
  ∑ e : Fin 64, q (ix3 b s e) * k (ix3 b κ e)

/-- The term key `κ` contributes to output entry `(b, s, d)`: the exponential of the score times the value entry. -/
def term (q k v : A.Idx → EReal) (b : Fin 4) (s : Fin 4096) (d : Fin 64) (κ : Fin 4096) : EReal :=
  Ideal.exp (score q k b s κ) * v (ix3 b κ d)

/-- The attention output: every key's term, summed. -/
def out (q k v : A.Idx → EReal) : A.Idx → EReal :=
  fun i => ∑ κ : Fin 4096, term q k v (i 0) (i 1) (i 2) κ

/-- A sum over `Fin 4096` of a function of the position is the sum over four runs of 1024 consecutive positions. -/
theorem sum_four_runs {M : Type*} [AddCommMonoid M] (f : ℕ → M) :
    ∑ κ : Fin 4096, f κ.val = ∑ j ∈ Finset.range 4, ∑ r : Fin 1024, f (1024 * j + r.val) := by
  rw [Finset.sum_range]
  rw [← Equiv.sum_comp (finProdFinEquiv (m := 4) (n := 1024)) (fun κ : Fin 4096 => f κ.val), Fintype.sum_prod_type]
  refine Finset.sum_congr rfl fun j _ => Finset.sum_congr rfl fun r _ => ?_
  exact congrArg f (Nat.add_comm _ _)

/-- The term of the key at position `n`, as a function of every natural (zero past the 4096 keys). -/
def termAt (q k v : A.Idx → EReal) (b : Fin 4) (s : Fin 4096) (d : Fin 64) (n : ℕ) : EReal :=
  if h : n < 4096 then term q k v b s d ⟨n, h⟩ else 0

/-- THE RE-GROUPING: the attention output at an entry is the sum, over the four runs of 1024 consecutive keys, of
    each run's terms. -/
theorem out_eq_runs (q k v : A.Idx → EReal) (i : A.Idx) :
    out q k v i = ∑ o ∈ Finset.range 4, ∑ r : Fin 1024, termAt q k v (i 0) (i 1) (i 2) (1024 * o + r.val) := by
  rw [← sum_four_runs (termAt q k v (i 0) (i 1) (i 2))]
  unfold out
  refine Finset.sum_congr rfl fun κ _ => ?_
  unfold termAt
  rw [dif_pos κ.isLt]

end Cert.ExpAttention

end
-- ==== Proof.WholeArray.lean ====
/-
  The result array after the run is the attention output of the three argument arrays.

  A block of the result is written back once, by the last point of the run that accumulated it. At that point the
  accumulator holds zero plus the contributions of the run's four points, and the point at offset `o` of the run
  contributes exactly the terms of keys `1024 · o … 1024 · o + 1023` (its key and value blocks are those rows, its
  query block the run's rows). Summed over the four offsets this is the sum over all 4096 keys: the attention
  output at that entry. The sixteen written blocks tile the array, so the whole array is the attention output.
-/
import proofs.«155767_j60653528154261_1_alg».proof.Proof.RunningSum
import proofs.«155767_j60653528154261_1_alg».proof.Proof.InputBlocks
import proofs.«155767_j60653528154261_1_alg».proof.Proof.ExpAttention

noncomputable section

open scoped BigOperators

namespace Cert.KernelIdeal.WholeArray

open Cert.KernelIdeal Cert.KernelIdeal.Gen Cert.KernelIdeal.Value Idealize.ShloMosaic Idealize.ShloMosaic.TcCoe Idealize.SL.Sem
open Idealize.ShloMosaic.ValueIdx
open Cert.KernelIdeal.RunningSum Cert.KernelIdeal.InputBlocks
open Cert.ExpAttention (termAt out_eq_runs)

variable (m : (ℓ : Loc nD τ sig) → Buf (Elt Ideal) ℓ) (ρ : Dev nD → PrngReg)

/-- Core `c`'s three argument arrays as launched, at their literal shape. -/
abbrev queries (c : Dev nD) : Cert.ExpAttention.A.Idx → EReal := m ((c : Thread nD τ).loc main_arg0)
abbrev keys (c : Dev nD) : Cert.ExpAttention.A.Idx → EReal := m ((c : Thread nD τ).loc main_arg1)
abbrev values (c : Dev nD) : Cert.ExpAttention.A.Idx → EReal := m ((c : Thread nD τ).loc main_arg2)

/-- The attention output of core `c`'s three argument arrays, as contents of its result array. -/
abbrev result (c : Dev nD) : Buf (Elt Ideal) ((c : Thread nD τ).loc main_v3) :=
  Cert.ExpAttention.out (queries m c) (keys m c) (values m c)

/-- The point at offset `o` of `t`'s run adds, at block entry `j`, the terms of keys `1024 · o …` for the array entry
    `i` that `j` is in the run's output block. -/
theorem added_eq_run (c : Dev nD) (t : Fin cfg0.N) (o : ℕ) (ho : o < 4) (j : S1x1024x64.Idx) (i : S4x4096x64.Idx)
    (h0 : (i 0).val = t.val / 16 + (j 0).val) (h1 : (i 1).val = t.val / 4 % 4 * 1024 + (j 1).val) (h2 : (i 2).val = (j 2).val) :
    added m c (4 * (t.val / 4) + o) j
      = ∑ r : Fin 1024, termAt (queries m c) (keys m c) (values m c) (i 0) (i 1) (i 2) (1024 * o + r.val) := by
  have hN : cfg0.N = 64 := N_0
  have ht : t.val < 64 := lt_of_lt_of_eq t.isLt hN
  have hj0 : (j 0).val < 1 := (j 0).isLt
  have hn : 4 * (t.val / 4) + o < cfg0.N := by omega
  unfold added
  rw [dif_pos hn]
  unfold KeyBlock.contribution
  refine Finset.sum_congr rfl fun r _ => ?_
  have hr : r.val < 1024 := r.isLt
  have hκ : 1024 * o + r.val < 4096 := by omega
  unfold termAt
  rw [dif_pos hκ]
  unfold Cert.ExpAttention.term Cert.ExpAttention.score
  have hv : valueBlock m c ⟨4 * (t.val / 4) + o, hn⟩ (ix3 (j 0) r (j 2))
      = values m c (ix3 (i 0) ⟨1024 * o + r.val, hκ⟩ (i 2)) :=
    value_read m c ⟨4 * (t.val / 4) + o, hn⟩ _ _
      (by show (i 0).val = (4 * (t.val / 4) + o) / 16 + (j 0).val; omega)
      (by show 1024 * o + r.val = (4 * (t.val / 4) + o) % 4 * 1024 + r.val; omega)
      (by show (i 2).val = (j 2).val; exact h2)
  have hs : ∀ e : Fin 64, queryBlock m c ⟨4 * (t.val / 4) + o, hn⟩ (ix3 (j 0) (j 1) e) * keyBlock m c ⟨4 * (t.val / 4) + o, hn⟩ (ix3 (j 0) r e)
      = queries m c (ix3 (i 0) (i 1) e) * keys m c (ix3 (i 0) ⟨1024 * o + r.val, hκ⟩ e) := fun e =>
    congrArg₂ (fun a b : EReal => a * b)
      (query_read m c ⟨4 * (t.val / 4) + o, hn⟩ (ix3 (j 0) (j 1) e) (ix3 (i 0) (i 1) e)
        (by show (i 0).val = (4 * (t.val / 4) + o) / 16 + (j 0).val; omega)
        (by show (i 1).val = (4 * (t.val / 4) + o) / 4 % 4 * 1024 + (j 1).val; omega) rfl)
      (key_read m c ⟨4 * (t.val / 4) + o, hn⟩ (ix3 (j 0) r e) (ix3 (i 0) ⟨1024 * o + r.val, hκ⟩ e)
        (by show (i 0).val = (4 * (t.val / 4) + o) / 16 + (j 0).val; omega)
        (by show 1024 * o + r.val = (4 * (t.val / 4) + o) % 4 * 1024 + r.val; omega) rfl)
  exact congrArg₂ (fun a b : EReal => Ideal.exp a * b) (Finset.sum_congr rfl fun e _ => hs e) hv

/-- WHAT A WRITING POINT WRITES BACK is its block of the attention output. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  obtain ⟨-, -, -, -, -, -, -, -, -, e0, e1, e2⟩ := block_indices t
  rw [flushed3]
  funext j
  show (outsAt0 m c t.val t.isLt).1 j = result m c (((cfg0.win 3).blk t).view.emb j)
  rw [output_eq_accumulator m c t h3, accumulator_apply, h3, zero_add]
  show ∑ o ∈ Finset.range 4, _ = Cert.ExpAttention.out (queries m c) (keys m c) (values m c) (((cfg0.win 3).blk t).view.emb j)
  rw [out_eq_runs]
  refine Finset.sum_congr rfl fun o ho => ?_
  exact added_eq_run m c t o (Finset.mem_range.mp ho) j _
    (by show win0_3.index t (0 : Fin 3) * 1 + 1 * (j 0).val = _; omega)
    (by show win0_3.index t (1 : Fin 3) * 1024 + 1 * (j 1).val = _; omega)
    (by show win0_3.index t (2 : Fin 3) * 64 + 1 * (j 2).val = _; omega)

/-- Every entry of the result array is in the block some writing point writes back: the last point of the run of
    its batch and its block of 1024 rows. -/
theorem covered (i : S4x4096x64.Idx) :
    ∃ t : Fin cfg0.N, (cfg0.win 3).flush t = true ∧ i ∈ ((cfg0.win 3).blk t).view.set := by
  have hN : cfg0.N = 64 := N_0
  have hi0 : (i 0).val < 4 := (i 0).isLt
  have hi1 : (i 1).val < 4096 := (i 1).isLt
  refine ⟨⟨16 * (i 0).val + 4 * ((i 1).val / 1024) + 3, by omega⟩, (flush0_3 _).mpr (by show (16 * (i 0).val + 4 * ((i 1).val / 1024) + 3) % 4 = 3; omega), ?_⟩
  rw [mem_output_block]
  show (i 0).val = (16 * (i 0).val + 4 * ((i 1).val / 1024) + 3) / 16
    ∧ (16 * (i 0).val + 4 * ((i 1).val / 1024) + 3) / 4 % 4 * 1024 ≤ (i 1).val
    ∧ (i 1).val < (16 * (i 0).val + 4 * ((i 1).val / 1024) + 3) / 4 % 4 * 1024 + 1024
  omega

/-- THE RESULT ARRAY after the run is the attention output of the arguments. -/
theorem final (c : Dev nD) : (dats m 0 c).arrAt 3 cfg0.N = result m c :=
  (dats m 0 c).arrAt_eq_of_cover 3 (result m c) (flushed_eq m c) covered

/-- The kernel's run: the result array at the attention output, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.WholeArray

end
-- ==== Proof.ReferenceOut.lean ====
/-
  The reference computes the attention output as stated: its first product gives every query row's score against
  every key row (contracting the 64 features), the exponential is taken entry by entry, and the second product
  contracts the 4096 keys against the value array. Read at an output entry `(b, s, d)` that is the sum over the keys
  of `exp(score) · v`, term for term the specification's sum.
-/
import proofs.«155767_j60653528154261_1_alg».proof.Proof.Gen.ReferenceIdeal.Read
import proofs.«155767_j60653528154261_1_alg».proof.Proof.ExpAttention

noncomputable section

open scoped BigOperators

namespace Cert.ReferenceIdeal.Attention

open Cert.ReferenceIdeal Cert.ReferenceIdeal.Read Idealize.ShloMosaic Idealize.ShloMosaic.ValueIdx

/-- The score stage reads query row `(b, s)` along the features; -/
theorem query_index (i : S4x4096x64.Idx) (κ : Fin 4096) (e : Fin 64) :
    lidx_main_v0 (lidx_main_v2 i κ) e = ix3 (i 0) (i 1) e :=
  funext fun a => by match a with | ⟨0, _⟩ => rfl | ⟨1, _⟩ => rfl | ⟨2, _⟩ => rfl

/-- and key row `(b, κ)` along the features; -/
theorem key_index (i : S4x4096x64.Idx) (κ : Fin 4096) (e : Fin 64) :
    ridx_main_v0 (lidx_main_v2 i κ) e = ix3 (i 0) κ e :=
  funext fun a => by match a with | ⟨0, _⟩ => rfl | ⟨1, _⟩ => rfl | ⟨2, _⟩ => rfl

/-- the second product reads value entry `(b, κ, d)`. -/
theorem value_index (i : S4x4096x64.Idx) (κ : Fin 4096) :
    ridx_main_v2 i κ = ix3 (i 0) κ (i 2) :=
  funext fun a => by match a with | ⟨0, _⟩ => rfl | ⟨1, _⟩ => rfl | ⟨2, _⟩ => rfl

/-- The reference's result, as a function of its three arguments, is the attention output. -/
theorem result_eq (q k v : (⟨S4x4096x64, .f32⟩ : BufTy).Contents (Elt Ideal)) :
    val_main_v2 (F := Ideal) q k v = Cert.ExpAttention.out q k v := by
  funext i
  rw [val_main_v2_apply]
  unfold Cert.ExpAttention.out Cert.ExpAttention.term Cert.ExpAttention.score
  refine Finset.sum_congr rfl fun κ _ => ?_
  rw [val_main_v1_apply, val_main_v0_apply, value_index]
  simp only [query_index, key_index, Ideal.hostUnary_exp_def]
  rfl

end Cert.ReferenceIdeal.Attention

end
-- ==== Proof.lean ====
/-
  Blocked unnormalised exponential attention against its plain reference, over the extended reals.

  Both programs compute, for batch `b`, query row `s` and feature `d`,

      out[b, s, d] = Σ_{κ < 4096} exp( Σ_{e < 64} q[b, s, e] · k[b, κ, e] ) · v[b, κ, d].

  The reference does it with two whole matrix products around an entrywise exponential. The kernel walks a
  4 × 4 × 4 grid (batch, block of 1024 query rows, block of 1024 keys): for each batch and query block it resets an
  accumulator at the first key block, adds at each key block the partial sum over that block's 1024 keys, and
  writes the accumulator to the result at the last key block. The changes of float format it makes on the way are
  the identity on the extended reals, and both of its matrix products start from zero. So what reaches entry
  `(b, s, d)` of the result is zero plus the four partial sums, which is the sum over all 4096 keys re-grouped
  into four runs of 1024: equal to the reference's sum by commutativity and associativity of addition alone, with
  no appeal to the inputs being finite.

  The three programs' runs and frames are the generated modules'; the idealisation rewrote nothing, so there is
  nothing to preserve. Written by hand: the value of one grid point's store entry by entry (KeyBlock), what each of
  the three control cases leaves in the accumulator (CaseValues), the accumulator after any point as a sum of
  contributions (RunningSum), which array entries a point's blocks hold (InputBlocks), the result array as the
  attention output (WholeArray), the reference's stages as the same function (ReferenceOut), and the specification
  with its re-grouping law (ExpAttention).
-/
import proofs.«155767_j60653528154261_1_alg».proof.Defs
import proofs.«155767_j60653528154261_1_alg».proof.Proof.Gen.Kernel
import proofs.«155767_j60653528154261_1_alg».proof.Proof.Gen.Kernel.Skeleton
import proofs.«155767_j60653528154261_1_alg».proof.Proof.Gen.Kernel.Launch
import proofs.«155767_j60653528154261_1_alg».proof.Proof.Gen.Kernel.Points
import proofs.«155767_j60653528154261_1_alg».proof.Proof.Gen.Kernel.Frame
import proofs.«155767_j60653528154261_1_alg».proof.Proof.Gen.KernelIdeal
import proofs.«155767_j60653528154261_1_alg».proof.Proof.Gen.KernelIdeal.Skeleton
import proofs.«155767_j60653528154261_1_alg».proof.Proof.Gen.KernelIdeal.Launch
import proofs.«155767_j60653528154261_1_alg».proof.Proof.Gen.KernelIdeal.Points
import proofs.«155767_j60653528154261_1_alg».proof.Proof.Gen.KernelIdeal.Frame
import proofs.«155767_j60653528154261_1_alg».proof.Proof.Gen.ReferenceIdeal
import proofs.«155767_j60653528154261_1_alg».proof.Proof.Gen.Pre_finite_inputs
import proofs.«155767_j60653528154261_1_alg».proof.Proof.Gen.KernelIdeal.Value
import proofs.«155767_j60653528154261_1_alg».proof.Proof.Gen.ReferenceIdeal.Run
import proofs.«155767_j60653528154261_1_alg».proof.Proof.Gen.ReferenceIdeal.Read
import proofs.«155767_j60653528154261_1_alg».proof.Proof.WholeArray
import proofs.«155767_j60653528154261_1_alg».proof.Proof.ReferenceOut
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of three host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the attention output of its arguments, and the
    reference's result at the attention output of its own: the same function of the same arrays. -/
theorem algebraic : Cert.algebraic_KernelIdeal_ReferenceIdeal := by
  intro m ρ m' ρ' _ hagree
  refine ⟨fun c => Cert.KernelIdeal.WholeArray.result m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Attention.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
